-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x32 : Shape := ⟨2, ![256, 32]⟩
abbrev S32 : Shape := ⟨1, ![32]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4096x4096 .f32) (main_arg1 : FVec F S4096x256 .f32) (main_arg2 : FVec F S256x32 .f32) (main_arg3 : FVec F S32 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S4096x4096 : Shape := ⟨2, ![4096, 4096]⟩
abbrev S4096x256 : Shape := ⟨2, ![4096, 256]⟩
abbrev S256x32 : Shape := ⟨2, ![256, 32]⟩
abbrev S32 : Shape := ⟨1, ![32]⟩
abbrev S1x32 : Shape := ⟨2, ![1, 32]⟩
abbrev S32x4096 : Shape := ⟨2, ![32, 4096]⟩
abbrev S512x2048 : Shape := ⟨2, ![512, 2048]⟩
abbrev S32x512 : Shape := ⟨2, ![32, 512]⟩
abbrev S4096x32 : Shape := ⟨2, ![4096, 32]⟩
abbrev S2048x32 : Shape := ⟨2, ![2048, 32]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x32, .f32⟩
  | .hbm, ⟨3, _⟩ => ⟨S32, .f32⟩
  | .hbm, ⟨4, _⟩ => ⟨S1x32, .f32⟩
  | .hbm, ⟨5, _⟩ => ⟨S32x4096, .f32⟩
  | .hbm, ⟨6, _⟩ => ⟨S4096x32, .f32⟩
  | .local _ .vmem, ⟨0, _⟩ => ⟨S4096x256, .f32⟩
  | .local _ .vmem, ⟨1, _⟩ => ⟨S256x32, .f32⟩
  | .local _ .vmem, ⟨2, _⟩ => ⟨S1x32, .f32⟩
  | .local _ .vmem, ⟨3, _⟩ => ⟨S512x2048, .f32⟩
  | .local _ .vmem, ⟨4, _⟩ => ⟨S512x2048, .f32⟩
  | .local _ .vmem, ⟨5, _⟩ => ⟨S32x512, .f32⟩
  | .local _ .vmem, ⟨6, _⟩ => ⟨S32x512, .f32⟩
  | .local _ .vmem, ⟨7, _⟩ => ⟨S4096x32, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : Index := Scalar.indexCast v5
  let c0 : Index := 0#32
  ![v6.toNat, 0]
def k0_cond2 (i : grid0.Coords) : BitVec 1 :=
  let arg1 : BitVec 32 := BitVec.ofNat 32 (i 1).val
  let c0_i32_4 : BitVec 32 := 0#32
  let v10 : BitVec 1 := Scalar.cmpi .eq arg1 c0_i32_4
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c0_i32_6 : BitVec 32 := 0#32
  let v13 : BitVec 1 := Scalar.cmpi .ne arg1 c0_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32_S1x32 : S32.ShapeCasts S1x32
  inb_S4096x256_S4096x256_0_0 : ∀ a, (![0, 0] : Fin 2 → Nat) a + S4096x256.size a ≤ S4096x256.size a
  h_S4096x256 : 0 < S4096x256.numel
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  h_S2048x32 : 0 < S2048x32.numel
  inb_S512x2048_S512x2048_0_0 : ∀ a, (![0, 0] : Fin 2 → Nat) a + S512x2048.size a ≤ S512x2048.size a
  h_S512x2048 : 0 < S512x2048.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  transposes_S32x4096_S4096x32_1_0 : S32x4096.Transposes [1, 0] S4096x32
  dot_S4096x256_S256x32_S4096x32_1_0_0_1_n_n_wf : DotDims.WF S4096x256 S256x32 S4096x32 [1] [0] [0] [1] [] []
  dot_S2048x32_S512x2048_S32x512_0_1_1_0_n_n_wf : DotDims.WF S2048x32 S512x2048 S32x512 [0] [1] [1] [0] [] []
  hrank0 : 0 < grid0.rank
  k0_off1_inb : ∀ i : grid0.Coords, ∀ a, (k0_off1 i) a + S2048x32.size a ≤ S4096x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x4096.size a
  hwx0_4 : ∀ i : grid0.Coords, EltTy.bits .f32 = 32 ∨ (Rect.block (s := S32x4096) S32x512.size (cc0_transform_4 i) (hinb0_4 i)).WholeWords (EltTy.packing .f32)

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S2048x32_S512x2048_S32x512_0_1_1_0_n_n : DotDims S2048x32 S512x2048 S32x512 where
  lhsContracting := [0]
  rhsContracting := [1]
  lhsNonContracting := [1]
  rhsNonContracting := [0]
  lhsBatch := []
  rhsBatch := []
  wf := dot_S2048x32_S512x2048_S32x512_0_1_1_0_n_n_wf

abbrev win0_0 : Pipeline.Window sig grid0 :=
  Pipeline.Window.ofSpec (Memref.whole main_arg1) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x32 : Shape := ⟨2, ![256, 32]⟩
abbrev S32 : Shape := ⟨1, ![32]⟩
abbrev S4096x32 : Shape := ⟨2, ![4096, 32]⟩
abbrev S1x32 : Shape := ⟨2, ![1, 32]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x32, .f32⟩
  | .hbm, ⟨3, _⟩ => ⟨S32, .f32⟩
  | .hbm, ⟨4, _⟩ => ⟨S4096x32, .f32⟩
  | .hbm, ⟨5, _⟩ => ⟨S1x32, .f32⟩
  | .hbm, ⟨6, _⟩ => ⟨S4096x32, .f32⟩
  | .hbm, ⟨7, _⟩ => ⟨S4096x32, .f32⟩
  | .hbm, ⟨8, _⟩ => ⟨S4096x32, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  dot_S4096x256_S256x32_S4096x32_1_0_0_1_n_n_wf : DotDims.WF S4096x256 S256x32 S4096x32 [1] [0] [0] [1] [] []
  dot_S4096x4096_S4096x32_S4096x32_1_0_0_1_n_n_wf : DotDims.WF S4096x4096 S4096x32 S4096x32 [1] [0] [0] [1] [] []

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf

class Facts : Prop extends Facts₀ where

variable [Facts]
-- ==== Proof.Bits.Runs.lean ====
/-
  The kernel body as three Hoare triples, one per control case, for any reading of the floats.
  The grid is 8 row blocks of `a` by 2 halves of the contraction axis. At the very first point the body computes the
  projection h = b·W + bias (4096×32) into a scratch buffer; at every point it multiplies the 2048 rows of h that belong to
  the point's contraction half against the 512×2048 tile of `a`, transposed, giving a 32×512 partial product; in the first
  half that partial product overwrites the output block, in the second half it is added to it. Each triple names exactly
  what the output block and the scratch hold afterwards, as the payload terms `k0_pay1`, `k0_pay2`, `k0_pay3` of what
  they held before.
-/
import proofs.«162685_g11879879542422_cont_fleet_303_32_alg».proof.Proof.Gen.Kernel.Frame
import proofs.«162685_g11879879542422_cont_fleet_303_32_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The three control cases of the body

The body branches three times on the grid point (row block `i 0`, contraction half `i 1`):
the projection is computed into the scratch only at the very first point; the output block is
overwritten by the partial product in the first contraction half and added to in the second. -/

/-- "This is the first grid point" (the projection is computed here). -/
abbrev isFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "First contraction half" (the output block is overwritten). -/
abbrev isReset (i : grid0.Coords) : Prop := k0_cond2 i = 1#1
/-- "Second contraction half" (the output block is accumulated into). -/
abbrev isAccum (i : grid0.Coords) : Prop := k0_cond3 i = 1#1

theorem isFirst_iff : ∀ t : Fin cfg0.N, isFirst (grid0.coords t) ↔ t.val % 16 = 0 :=
  (by decide +kernel : ∀ t : Fin grid0.N, isFirst (grid0.coords t) ↔ t.val % 16 = 0)
theorem isReset_iff : ∀ t : Fin cfg0.N, isReset (grid0.coords t) ↔ t.val % 2 = 0 :=
  (by decide +kernel : ∀ t : Fin grid0.N, isReset (grid0.coords t) ↔ t.val % 2 = 0)
theorem isAccum_iff : ∀ t : Fin cfg0.N, isAccum (grid0.coords t) ↔ t.val % 2 = 1 :=
  (by decide +kernel : ∀ t : Fin grid0.N, isAccum (grid0.coords t) ↔ t.val % 2 = 1)

/-- The zero offsets of a whole-buffer access, as a constant function. -/
theorem zero_off : (![0, 0] : Fin 2 → Nat) = fun _ => 0 := by
  funext a; match a with | ⟨0, _⟩ => rfl | ⟨1, _⟩ => rfl

/-- The 2048 rows of the projection that the contraction half of point `i` uses. -/
abbrev rowsOf (i : grid0.Coords) (s : Vec F S4096x32 .f32) : Vec F S2048x32 .f32 :=
  View.ld s (Rect.unit (s := S4096x32) (k0_off1 i) S2048x32.size (k0_off1_inb i))

/-- The one whole-block store's rectangle covers the output block. -/
theorem cover_out (w : Vec F S32x512 .f32) (y : S32x512.Idx) :
    ∃ p ∈ [(⟨Rect.unit (s := S32x512) ![0, 0] S32x512.size inb_S32x512_S32x512_0_0, w⟩ : View.Piece (Elt F) S32x512 .f32)], y ∈ p.1.set :=
  ⟨_, List.mem_singleton_self _, View.mem_set_unit_zero zero_off inb_S32x512_S32x512_0_0 y⟩
/-- The one whole-buffer store's rectangle covers the scratch. -/
theorem cover_scr (w : Vec F S4096x32 .f32) (y : S4096x32.Idx) :
    ∃ p ∈ [(⟨Rect.unit (s := S4096x32) ![0, 0] S4096x32.size inb_S4096x32_S4096x32_0_0, w⟩ : View.Piece (Elt F) S4096x32 .f32)], y ∈ p.1.set :=
  ⟨_, List.mem_singleton_self _, View.mem_set_unit_zero zero_off inb_S4096x32_S4096x32_0_0 y⟩

set_option maxHeartbeats 1000000 in
/-- SECOND HALF (accumulate): with the scratch holding `s` and the output block holding `y`, the body leaves
    the inputs and the scratch as they were and the output block at `y + rowsOf(s)ᵀ·x3ᵀ` (`k0_pay3`). -/
theorem run_accum (c : Dev nD) (i : grid0.Coords) (arg2 : Memref sig .tc .vmem S4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S512x2048 .f32) (harg5 : arg5.IsWhole) (arg6 : Memref sig .tc .vmem S32x512 .f32) (harg6 : arg6.IsWhole) (arg7 : Memref sig .tc .vmem S4096x32 .f32) (harg7 : arg7.IsWhole) (hc0 : ¬isFirst i) (hc1 : ¬isReset i) (hc2 : isAccum i)
    (x0 : Vec F S4096x256 .f32) (x1 : Vec F S256x32 .f32) (x2 : Vec F S1x32 .f32) (x3 : Vec F S512x2048 .f32) (y : Vec F S32x512 .f32) (s : Vec F S4096x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (rowsOf i s) x3 y) ∗ owns (c : Thread nD τ) arg7 fullShare s) -∗ K ⟨⟩))
          ⊢ wp frame (wpE (defs₀ (F := F)) Variants.none c none) E (cc0__fused_kernel i arg2 harg2 arg3 harg3 arg4 harg4 arg5 harg5 arg6 harg6 arg7 harg7) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (cover_out _), View.canon_unit_zero zero_off]
      simp only [View.readAt_eq_ld, harg5.read_unread, harg6.read_unread, harg7.read_unread, View.ld_unit_zero (S := S512x2048) zero_off, View.ld_unit_zero (S := S32x512) zero_off]
    iexists _; isplitr; swap; · iexact HS0
    ipureintro; exact hfs0

set_option maxHeartbeats 1000000 in
/-- FIRST HALF, not the first point (overwrite): with the scratch holding `s`, the body leaves the inputs and the
    scratch as they were and the output block at `rowsOf(s)ᵀ·x3ᵀ` (`k0_pay2`), whatever it held. -/
theorem run_reset (c : Dev nD) (i : grid0.Coords) (arg2 : Memref sig .tc .vmem S4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S512x2048 .f32) (harg5 : arg5.IsWhole) (arg6 : Memref sig .tc .vmem S32x512 .f32) (harg6 : arg6.IsWhole) (arg7 : Memref sig .tc .vmem S4096x32 .f32) (harg7 : arg7.IsWhole) (hc0 : ¬isFirst i) (hc1 : isReset i) (hc2 : ¬isAccum i)
    (x0 : Vec F S4096x256 .f32) (x1 : Vec F S256x32 .f32) (x2 : Vec F S1x32 .f32) (x3 : Vec F S512x2048 .f32) (s : Vec F S4096x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (rowsOf i s) x3) ∗ owns (c : Thread nD τ) arg7 fullShare s) -∗ K ⟨⟩))
          ⊢ wp frame (wpE (defs₀ (F := F)) Variants.none c none) E (cc0__fused_kernel i arg2 harg2 arg3 harg3 arg4 harg4 arg5 harg5 arg6 harg6 arg7 harg7) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (cover_out _), View.canon_unit_zero zero_off]
      simp only [View.readAt_eq_ld, harg5.read_unread, harg7.read_unread, View.ld_unit_zero (S := S512x2048) zero_off]
    iexists _; isplitr; swap; · iexact HS0
    ipureintro; exact hfs0

set_option maxHeartbeats 1000000 in
/-- THE FIRST POINT: whatever the scratch and the output block held, the body leaves the scratch at the projection
    `x0·x1 + x2` (`k0_pay1`) and the output block at the partial product over that projection's rows. -/
theorem run_first (c : Dev nD) (i : grid0.Coords) (arg2 : Memref sig .tc .vmem S4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S512x2048 .f32) (harg5 : arg5.IsWhole) (arg6 : Memref sig .tc .vmem S32x512 .f32) (harg6 : arg6.IsWhole) (arg7 : Memref sig .tc .vmem S4096x32 .f32) (harg7 : arg7.IsWhole) (hc0 : isFirst i) (hc1 : isReset i) (hc2 : ¬isAccum i)
    (x0 : Vec F S4096x256 .f32) (x1 : Vec F S256x32 .f32) (x2 : Vec F S1x32 .f32) (x3 : Vec F S512x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (rowsOf i (k0_pay1 x0 x1 x2)) x3) ∗ owns (c : Thread nD τ) arg7 fullShare (k0_pay1 x0 x1 x2)) -∗ K ⟨⟩))
          ⊢ wp frame (wpE (defs₀ (F := F)) Variants.none c none) E (cc0__fused_kernel i arg2 harg2 arg3 harg3 arg4 harg4 arg5 harg5 arg6 harg6 arg7 harg7) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_run_names
      rw [View.read_writes_eq_canon _ _ _ (cover_out _), View.canon_unit_zero zero_off]
      simp only [View.readAt_eq_ld]
      rw [View.read_writes_eq_canon _ _ _ (cover_scr _), View.canon_unit_zero zero_off]
      simp only [harg2.read_unread, harg3.read_unread, harg4.read_unread, harg5.read_unread, View.ld_unit_zero (S := S4096x256) zero_off, View.ld_unit_zero (S := S256x32) zero_off, View.ld_unit_zero (S := S1x32) zero_off, View.ld_unit_zero (S := S512x2048) zero_off]
    iexists _; isplitr; swap; · iexact HS0
    ipureintro
    sl_unfold_run_names
    rw [View.read_writes_eq_canon _ _ _ (cover_scr _), View.canon_unit_zero zero_off]
    simp only [View.readAt_eq_ld, harg2.read_unread, harg3.read_unread, harg4.read_unread, View.ld_unit_zero (S := S4096x256) zero_off, View.ld_unit_zero (S := S256x32) zero_off, View.ld_unit_zero (S := S1x32) zero_off]

end Cert.Kernel.Body
end
-- ==== Proof.Bits.Frame.lean ====
/-
  The frame of the program around its one kernel region, with every buffer's contents named point by point.
  After the first grid point the scratch holds the projection h = b·W + bias for the rest of the run. After a point of the
  first contraction half the output block holds that half's partial product; after a point of the second half, the sum
  of the two halves' partial products, and only then is the block written back to the transposed result array. With these
  contents as the pipeline's proof data, the body's three triples discharge the body obligation at every point, and the
  run of @main follows: the argument arrays end unchanged and the transposed result array ends at what the written-back
  blocks make of it.
-/
import proofs.«162685_g11879879542422_cont_fleet_303_32_alg».proof.Proof.Bits.Runs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## What the staging buffers and the scratch hold, point by point

The projection `b·W + bias` is computed once, at the first grid point, from the three small operands' whole
blocks, and stays in the scratch from then on. At a point of the first contraction half the output block is the
partial product of that half; at a point of the second half it is the first half's partial product plus the
second's. -/

/-- Each window's current staging memref at point `t`, and the scratch. -/
abbrev stg0 (t : Fin cfg0.N) : Memref sig .tc .vmem S4096x256 .f32 := win0_0.stage (cfg0.slots t 0)
abbrev stg1 (t : Fin cfg0.N) : Memref sig .tc .vmem S256x32 .f32 := win0_1.stage (cfg0.slots t 1)
abbrev stg2 (t : Fin cfg0.N) : Memref sig .tc .vmem S1x32 .f32 := win0_2.stage (cfg0.slots t 2)
abbrev stg3 (t : Fin cfg0.N) : Memref sig .tc .vmem S512x2048 .f32 := win0_3.stage (cfg0.slots t 3)
abbrev stg4 (t : Fin cfg0.N) : Memref sig .tc .vmem S32x512 .f32 := win0_4.stage (cfg0.slots t 4)
abbrev scr : Memref sig .tc .vmem S4096x32 .f32 := Memref.whole cc0_scratch0

/-- The region's plain invariant, with the scratch as a memref owned at some contents. -/
theorem plainInv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- No window is idle at any point (the output is stored in one half or the other). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live4_all : ∀ i : grid0.Coords, cfg0.idle 4 i = false := by decide +kernel

/-- The first grid point. -/
def tFirst : Fin cfg0.N := ⟨0, by have : cfg0.N = 16 := N_0; omega⟩
/-- The point before `t`. -/
def prev (t : Fin cfg0.N) : Fin cfg0.N := ⟨t.val - 1, Nat.lt_of_le_of_lt (Nat.sub_le _ _) t.isLt⟩

/-- The projection `b·W + bias`, from the three small operands as the region finds them. -/
def projV (c : Dev nD) : Vec F S4096x32 .f32 :=
  k0_pay1 (iblk m c 0 tFirst) (iblk m c 1 tFirst) (iblk m c 2 tFirst)
/-- The partial product of point `t`'s contraction half: the projection's rows of that half against the tile of `a`. -/
def partV (c : Dev nD) (t : Fin cfg0.N) : Vec F S32x512 .f32 :=
  k0_pay2 (rowsOf (grid0.coords t) (projV m c)) (iblk m c 3 t)
/-- The output block after point `t`. -/
def outV (c : Dev nD) (t : Fin cfg0.N) : Vec F S32x512 .f32 :=
  if t.val % 2 = 0 then partV m c t
  else k0_pay3 (rowsOf (grid0.coords t) (projV m c)) (iblk m c 3 t) (partV m c (prev t))

/-- The invariant before point `n`: before the first point the scratch holds anything; from then on the projection. -/
def inv (c : Dev nD) : ℕ → sProp 𝕄
  | 0 => Pipeline.ΦA spec0 c
  | _ + 1 => iprop(iprop(owns (c : Thread nD τ) scr fullShare (projV m c)) ∗ (∃ r, prngReg c r))

/-- The proof data: the arrays as the region finds them; every input's buffer at its block; the output's at `outV`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV m c t
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outV m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- In the second contraction half the output's buffer still holds what the first half left: the block is written back
    only after the second half, and its buffer does not change in between. -/
theorem before4_accum (c : Dev nD) (t : Fin cfg0.N) (ht : t.val % 2 = 1) (d) :
    (dats m 0 c).before 4 t d = partV m c (prev t) := by
  have hpos : t.val ≠ 0 := by omega
  have hfl : (cfg0.win 4).flush ⟨t.val - 1, Nat.lt_of_le_of_lt (Nat.sub_le _ _) t.isLt⟩ = false :=
    Bool.eq_false_iff.mpr fun h => by
      have := (flush0_4 ⟨t.val - 1, Nat.lt_of_le_of_lt (Nat.sub_le _ _) t.isLt⟩).mp h
      dsimp only at this; omega
  rw [(dats m 0 c).before_out_kept 4 rfl t hpos hfl live4_all (fun _ _ => rfl) d, after4]
  unfold outV prev
  rw [if_pos (by dsimp only; omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (stg0 t) fullShare (iblk m c 0 t) := by
  unfold Dat.leavesExact; rw [live0 t, after0]
theorem leaves1 (c : Dev nD) (t : Fin cfg0.N) : (dats m 0 c).leavesExact 1 t = owns (c : Thread nD τ) (stg1 t) fullShare (iblk m c 1 t) := by
  unfold Dat.leavesExact; rw [live1 t, after1]
theorem leaves2 (c : Dev nD) (t : Fin cfg0.N) : (dats m 0 c).leavesExact 2 t = owns (c : Thread nD τ) (stg2 t) fullShare (iblk m c 2 t) := by
  unfold Dat.leavesExact; rw [live2 t, after2]
theorem leaves3 (c : Dev nD) (t : Fin cfg0.N) : (dats m 0 c).leavesExact 3 t = owns (c : Thread nD τ) (stg3 t) fullShare (iblk m c 3 t) := by
  unfold Dat.leavesExact; rw [live3 t, after3]
theorem leaves4 (c : Dev nD) (t : Fin cfg0.N) : (dats m 0 c).leavesExact 4 t = owns (c : Thread nD τ) (stg4 t) fullShare (outV m c t) := by
  unfold Dat.leavesExact; rw [live4 t, after4]

set_option maxHeartbeats 2000000 in
/-- The body at any point: which of the three cases the point is in is decided by its position; the inputs' buffers hold
    their blocks; in the second half the output's buffer holds the first half's partial product; after the first point the
    scratch holds the projection. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3, leaves4]
  rw [show (dats m 0 c).owesAt () t.succ = (dats m 0 c).owesAt () t.castSucc from rfl]
  rw [show (dats m 0 c).Φ t.succ = iprop(iprop(owns (c : Thread nD τ) scr fullShare (projV m c)) ∗ (∃ r, prngReg c r)) from rfl]
  have hN : t.val < 16 := lt_of_lt_of_eq t.isLt (show cfg0.N = 16 from N_0)
  by_cases hz : t.val = 0
  · -- the first point
    have h0 : t.val % 16 = 0 := by omega
    have h1 : t.val % 2 = 0 := by omega
    have h2 : ¬ t.val % 2 = 1 := by omega
    have ht : t = tFirst := Fin.ext hz
    rw [show (dats m 0 c).Φ t.castSucc = Pipeline.ΦA spec0 c from by
      show inv m c t.castSucc.val = _; rw [Fin.coe_castSucc, hz]; rfl, plainInv_eq]
    have hout : outV m c t = k0_pay2 (rowsOf (grid0.coords t) (k0_pay1 (iblk m c 0 t) (iblk m c 1 t) (iblk m c 2 t))) (iblk m c 3 t) := by
      unfold outV partV projV; rw [if_pos h1, ht]
    have hproj : projV m c = k0_pay1 (iblk m c 0 t) (iblk m c 1 t) (iblk m c 2 t) := by
      unfold projV; rw [ht]
    rw [hout, hproj]
    iintro ⟨⟨HS0, Hg⟩, Ho, ⟨%d0, H0⟩, ⟨%d1, H1⟩, ⟨%d2, H2⟩, ⟨%d3, H3⟩, ⟨%d4, H4⟩⟩
    iapply ((run_first c (grid0.coords t) _ _ _ _ _ _ _ _ _ _ _ _ ((isFirst_iff t).mpr h0) ((isReset_iff t).mpr h1) (fun h => h2 ((isAccum_iff t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · have h0 : ¬ t.val % 16 = 0 := by omega
    rw [show (dats m 0 c).Φ t.castSucc = iprop(iprop(owns (c : Thread nD τ) scr fullShare (projV m c)) ∗ (∃ r, prngReg c r)) from by
      show inv m c t.castSucc.val = _
      rw [Fin.coe_castSucc]
      obtain ⟨n, hn⟩ : ∃ n, t.val = n + 1 := ⟨t.val - 1, by omega⟩
      rw [hn]; rfl]
    by_cases h1 : t.val % 2 = 0
    · -- first contraction half of a later row block
      have h2 : ¬ t.val % 2 = 1 := by omega
      rw [show outV m c t = k0_pay2 (rowsOf (grid0.coords t) (projV m c)) (iblk m c 3 t) from by
        unfold outV partV; rw [if_pos h1]]
      iintro ⟨⟨HS0, Hg⟩, Ho, ⟨%d0, H0⟩, ⟨%d1, H1⟩, ⟨%d2, H2⟩, ⟨%d3, H3⟩, ⟨%d4, H4⟩⟩
      iapply ((run_reset c (grid0.coords t) _ _ _ _ _ _ _ _ _ _ _ _ (fun h => h0 ((isFirst_iff t).mp h)) ((isReset_iff t).mpr h1) (fun h => h2 ((isAccum_iff t).mp h)) (iblk m c 0 t) (iblk m c 1 t) (iblk m c 2 t) (iblk m c 3 t) (projV m c)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4
    · -- second contraction half
      have h2 : t.val % 2 = 1 := by omega
      simp only [before4_accum m c t h2]
      rw [show outV m c t = k0_pay3 (rowsOf (grid0.coords t) (projV m c)) (iblk m c 3 t) (partV m c (prev t)) from by
        unfold outV; rw [if_neg h1]]
      iintro ⟨⟨HS0, Hg⟩, Ho, ⟨%d0, H0⟩, ⟨%d1, H1⟩, ⟨%d2, H2⟩, ⟨%d3, H3⟩, ⟨%d4, H4⟩⟩
      iapply ((run_accum c (grid0.coords t) _ _ _ _ _ _ _ _ _ _ _ _ (fun h => h0 ((isFirst_iff t).mp h)) (fun h => h1 ((isReset_iff t).mp h)) ((isAccum_iff t).mpr h2) (iblk m c 0 t) (iblk m c 1 t) (iblk m c 2 t) (iblk m c 3 t) (partV m c (prev t)) (projV m c)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 :=
  Idealize.SL.BI.Entails.refl _

/-- After the last point the invariant gives the plain one back: the scratch's contents are forgotten. -/
theorem inv_out (c : Dev nD) : (dats m 0 c).Φ (Fin.last cfg0.N) ⊢ Pipeline.ΦA spec0 c := by
  rw [show (dats m 0 c).Φ (Fin.last cfg0.N) = iprop(iprop(owns (c : Thread nD τ) scr fullShare (projV m c)) ∗ (∃ r, prngReg c r)) from by
    show inv m c (Fin.last cfg0.N).val = _
    rw [Fin.val_last, show cfg0.N = 15 + 1 from N_0]; rfl, plainInv_eq]
  iintro ⟨HS0, Hg⟩
  isplitl [HS0]
  · iexists _; iexact HS0
  iexact Hg

/-! ## The run and the frame -/

set_option backward.isDefEq.respectTransparency.types false in
/-- Every weakly fair execution of @main terminates; every array of the pipeline ends at what the proof data computes,
    every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body
end
-- ==== Proof.Ideal.Runs.lean ====
/-
  The kernel body as three Hoare triples, one per control case, for any reading of the floats.
  The grid is 8 row blocks of `a` by 2 halves of the contraction axis. At the very first point the body computes the
  projection h = b·W + bias (4096×32) into a scratch buffer; at every point it multiplies the 2048 rows of h that belong to
  the point's contraction half against the 512×2048 tile of `a`, transposed, giving a 32×512 partial product; in the first
  half that partial product overwrites the output block, in the second half it is added to it. Each triple names exactly
  what the output block and the scratch hold afterwards, as the payload terms `k0_pay1`, `k0_pay2`, `k0_pay3` of what
  they held before.
-/
import proofs.«162685_g11879879542422_cont_fleet_303_32_alg».proof.Proof.Gen.KernelIdeal.Frame
import proofs.«162685_g11879879542422_cont_fleet_303_32_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The three control cases of the body

The body branches three times on the grid point (row block `i 0`, contraction half `i 1`):
the projection is computed into the scratch only at the very first point; the output block is
overwritten by the partial product in the first contraction half and added to in the second. -/

/-- "This is the first grid point" (the projection is computed here). -/
abbrev isFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "First contraction half" (the output block is overwritten). -/
abbrev isReset (i : grid0.Coords) : Prop := k0_cond2 i = 1#1
/-- "Second contraction half" (the output block is accumulated into). -/
abbrev isAccum (i : grid0.Coords) : Prop := k0_cond3 i = 1#1

theorem isFirst_iff : ∀ t : Fin cfg0.N, isFirst (grid0.coords t) ↔ t.val % 16 = 0 :=
  (by decide +kernel : ∀ t : Fin grid0.N, isFirst (grid0.coords t) ↔ t.val % 16 = 0)
theorem isReset_iff : ∀ t : Fin cfg0.N, isReset (grid0.coords t) ↔ t.val % 2 = 0 :=
  (by decide +kernel : ∀ t : Fin grid0.N, isReset (grid0.coords t) ↔ t.val % 2 = 0)
theorem isAccum_iff : ∀ t : Fin cfg0.N, isAccum (grid0.coords t) ↔ t.val % 2 = 1 :=
  (by decide +kernel : ∀ t : Fin grid0.N, isAccum (grid0.coords t) ↔ t.val % 2 = 1)

/-- The zero offsets of a whole-buffer access, as a constant function. -/
theorem zero_off : (![0, 0] : Fin 2 → Nat) = fun _ => 0 := by
  funext a; match a with | ⟨0, _⟩ => rfl | ⟨1, _⟩ => rfl

/-- The 2048 rows of the projection that the contraction half of point `i` uses. -/
abbrev rowsOf (i : grid0.Coords) (s : Vec F S4096x32 .f32) : Vec F S2048x32 .f32 :=
  View.ld s (Rect.unit (s := S4096x32) (k0_off1 i) S2048x32.size (k0_off1_inb i))

/-- The one whole-block store's rectangle covers the output block. -/
theorem cover_out (w : Vec F S32x512 .f32) (y : S32x512.Idx) :
    ∃ p ∈ [(⟨Rect.unit (s := S32x512) ![0, 0] S32x512.size inb_S32x512_S32x512_0_0, w⟩ : View.Piece (Elt F) S32x512 .f32)], y ∈ p.1.set :=
  ⟨_, List.mem_singleton_self _, View.mem_set_unit_zero zero_off inb_S32x512_S32x512_0_0 y⟩
/-- The one whole-buffer store's rectangle covers the scratch. -/
theorem cover_scr (w : Vec F S4096x32 .f32) (y : S4096x32.Idx) :
    ∃ p ∈ [(⟨Rect.unit (s := S4096x32) ![0, 0] S4096x32.size inb_S4096x32_S4096x32_0_0, w⟩ : View.Piece (Elt F) S4096x32 .f32)], y ∈ p.1.set :=
  ⟨_, List.mem_singleton_self _, View.mem_set_unit_zero zero_off inb_S4096x32_S4096x32_0_0 y⟩

set_option maxHeartbeats 1000000 in
/-- SECOND HALF (accumulate): with the scratch holding `s` and the output block holding `y`, the body leaves
    the inputs and the scratch as they were and the output block at `y + rowsOf(s)ᵀ·x3ᵀ` (`k0_pay3`). -/
theorem run_accum (c : Dev nD) (i : grid0.Coords) (arg2 : Memref sig .tc .vmem S4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S512x2048 .f32) (harg5 : arg5.IsWhole) (arg6 : Memref sig .tc .vmem S32x512 .f32) (harg6 : arg6.IsWhole) (arg7 : Memref sig .tc .vmem S4096x32 .f32) (harg7 : arg7.IsWhole) (hc0 : ¬isFirst i) (hc1 : ¬isReset i) (hc2 : isAccum i)
    (x0 : Vec F S4096x256 .f32) (x1 : Vec F S256x32 .f32) (x2 : Vec F S1x32 .f32) (x3 : Vec F S512x2048 .f32) (y : Vec F S32x512 .f32) (s : Vec F S4096x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (rowsOf i s) x3 y) ∗ owns (c : Thread nD τ) arg7 fullShare s) -∗ K ⟨⟩))
          ⊢ wp frame (wpE (defs₀ (F := F)) Variants.none c none) E (cc0__fused_kernel i arg2 harg2 arg3 harg3 arg4 harg4 arg5 harg5 arg6 harg6 arg7 harg7) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (cover_out _), View.canon_unit_zero zero_off]
      simp only [View.readAt_eq_ld, harg5.read_unread, harg6.read_unread, harg7.read_unread, View.ld_unit_zero (S := S512x2048) zero_off, View.ld_unit_zero (S := S32x512) zero_off]
    iexists _; isplitr; swap; · iexact HS0
    ipureintro; exact hfs0

set_option maxHeartbeats 1000000 in
/-- FIRST HALF, not the first point (overwrite): with the scratch holding `s`, the body leaves the inputs and the
    scratch as they were and the output block at `rowsOf(s)ᵀ·x3ᵀ` (`k0_pay2`), whatever it held. -/
theorem run_reset (c : Dev nD) (i : grid0.Coords) (arg2 : Memref sig .tc .vmem S4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S512x2048 .f32) (harg5 : arg5.IsWhole) (arg6 : Memref sig .tc .vmem S32x512 .f32) (harg6 : arg6.IsWhole) (arg7 : Memref sig .tc .vmem S4096x32 .f32) (harg7 : arg7.IsWhole) (hc0 : ¬isFirst i) (hc1 : isReset i) (hc2 : ¬isAccum i)
    (x0 : Vec F S4096x256 .f32) (x1 : Vec F S256x32 .f32) (x2 : Vec F S1x32 .f32) (x3 : Vec F S512x2048 .f32) (s : Vec F S4096x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (rowsOf i s) x3) ∗ owns (c : Thread nD τ) arg7 fullShare s) -∗ K ⟨⟩))
          ⊢ wp frame (wpE (defs₀ (F := F)) Variants.none c none) E (cc0__fused_kernel i arg2 harg2 arg3 harg3 arg4 harg4 arg5 harg5 arg6 harg6 arg7 harg7) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (cover_out _), View.canon_unit_zero zero_off]
      simp only [View.readAt_eq_ld, harg5.read_unread, harg7.read_unread, View.ld_unit_zero (S := S512x2048) zero_off]
    iexists _; isplitr; swap; · iexact HS0
    ipureintro; exact hfs0

set_option maxHeartbeats 1000000 in
/-- THE FIRST POINT: whatever the scratch and the output block held, the body leaves the scratch at the projection
    `x0·x1 + x2` (`k0_pay1`) and the output block at the partial product over that projection's rows. -/
theorem run_first (c : Dev nD) (i : grid0.Coords) (arg2 : Memref sig .tc .vmem S4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S512x2048 .f32) (harg5 : arg5.IsWhole) (arg6 : Memref sig .tc .vmem S32x512 .f32) (harg6 : arg6.IsWhole) (arg7 : Memref sig .tc .vmem S4096x32 .f32) (harg7 : arg7.IsWhole) (hc0 : isFirst i) (hc1 : isReset i) (hc2 : ¬isAccum i)
    (x0 : Vec F S4096x256 .f32) (x1 : Vec F S256x32 .f32) (x2 : Vec F S1x32 .f32) (x3 : Vec F S512x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (rowsOf i (k0_pay1 x0 x1 x2)) x3) ∗ owns (c : Thread nD τ) arg7 fullShare (k0_pay1 x0 x1 x2)) -∗ K ⟨⟩))
          ⊢ wp frame (wpE (defs₀ (F := F)) Variants.none c none) E (cc0__fused_kernel i arg2 harg2 arg3 harg3 arg4 harg4 arg5 harg5 arg6 harg6 arg7 harg7) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_run_names
      rw [View.read_writes_eq_canon _ _ _ (cover_out _), View.canon_unit_zero zero_off]
      simp only [View.readAt_eq_ld]
      rw [View.read_writes_eq_canon _ _ _ (cover_scr _), View.canon_unit_zero zero_off]
      simp only [harg2.read_unread, harg3.read_unread, harg4.read_unread, harg5.read_unread, View.ld_unit_zero (S := S4096x256) zero_off, View.ld_unit_zero (S := S256x32) zero_off, View.ld_unit_zero (S := S1x32) zero_off, View.ld_unit_zero (S := S512x2048) zero_off]
    iexists _; isplitr; swap; · iexact HS0
    ipureintro
    sl_unfold_run_names
    rw [View.read_writes_eq_canon _ _ _ (cover_scr _), View.canon_unit_zero zero_off]
    simp only [View.readAt_eq_ld, harg2.read_unread, harg3.read_unread, harg4.read_unread, View.ld_unit_zero (S := S4096x256) zero_off, View.ld_unit_zero (S := S256x32) zero_off, View.ld_unit_zero (S := S1x32) zero_off]

end Cert.KernelIdeal.Body
end
-- ==== Proof.Ideal.Frame.lean ====
/-
  The frame of the program around its one kernel region, with every buffer's contents named point by point.
  After the first grid point the scratch holds the projection h = b·W + bias for the rest of the run. After a point of the
  first contraction half the output block holds that half's partial product; after a point of the second half, the sum
  of the two halves' partial products, and only then is the block written back to the transposed result array. With these
  contents as the pipeline's proof data, the body's three triples discharge the body obligation at every point, and the
  run of @main follows: the argument arrays end unchanged and the transposed result array ends at what the written-back
  blocks make of it.
-/
import proofs.«162685_g11879879542422_cont_fleet_303_32_alg».proof.Proof.Ideal.Runs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## What the staging buffers and the scratch hold, point by point

The projection `b·W + bias` is computed once, at the first grid point, from the three small operands' whole
blocks, and stays in the scratch from then on. At a point of the first contraction half the output block is the
partial product of that half; at a point of the second half it is the first half's partial product plus the
second's. -/

/-- Each window's current staging memref at point `t`, and the scratch. -/
abbrev stg0 (t : Fin cfg0.N) : Memref sig .tc .vmem S4096x256 .f32 := win0_0.stage (cfg0.slots t 0)
abbrev stg1 (t : Fin cfg0.N) : Memref sig .tc .vmem S256x32 .f32 := win0_1.stage (cfg0.slots t 1)
abbrev stg2 (t : Fin cfg0.N) : Memref sig .tc .vmem S1x32 .f32 := win0_2.stage (cfg0.slots t 2)
abbrev stg3 (t : Fin cfg0.N) : Memref sig .tc .vmem S512x2048 .f32 := win0_3.stage (cfg0.slots t 3)
abbrev stg4 (t : Fin cfg0.N) : Memref sig .tc .vmem S32x512 .f32 := win0_4.stage (cfg0.slots t 4)
abbrev scr : Memref sig .tc .vmem S4096x32 .f32 := Memref.whole cc0_scratch0

/-- The region's plain invariant, with the scratch as a memref owned at some contents. -/
theorem plainInv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- No window is idle at any point (the output is stored in one half or the other). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live4_all : ∀ i : grid0.Coords, cfg0.idle 4 i = false := by decide +kernel

/-- The first grid point. -/
def tFirst : Fin cfg0.N := ⟨0, by have : cfg0.N = 16 := N_0; omega⟩
/-- The point before `t`. -/
def prev (t : Fin cfg0.N) : Fin cfg0.N := ⟨t.val - 1, Nat.lt_of_le_of_lt (Nat.sub_le _ _) t.isLt⟩

/-- The projection `b·W + bias`, from the three small operands as the region finds them. -/
def projV (c : Dev nD) : Vec F S4096x32 .f32 :=
  k0_pay1 (iblk m c 0 tFirst) (iblk m c 1 tFirst) (iblk m c 2 tFirst)
/-- The partial product of point `t`'s contraction half: the projection's rows of that half against the tile of `a`. -/
def partV (c : Dev nD) (t : Fin cfg0.N) : Vec F S32x512 .f32 :=
  k0_pay2 (rowsOf (grid0.coords t) (projV m c)) (iblk m c 3 t)
/-- The output block after point `t`. -/
def outV (c : Dev nD) (t : Fin cfg0.N) : Vec F S32x512 .f32 :=
  if t.val % 2 = 0 then partV m c t
  else k0_pay3 (rowsOf (grid0.coords t) (projV m c)) (iblk m c 3 t) (partV m c (prev t))

/-- The invariant before point `n`: before the first point the scratch holds anything; from then on the projection. -/
def inv (c : Dev nD) : ℕ → sProp 𝕄
  | 0 => Pipeline.ΦA spec0 c
  | _ + 1 => iprop(iprop(owns (c : Thread nD τ) scr fullShare (projV m c)) ∗ (∃ r, prngReg c r))

/-- The proof data: the arrays as the region finds them; every input's buffer at its block; the output's at `outV`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV m c t
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outV m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- In the second contraction half the output's buffer still holds what the first half left: the block is written back
    only after the second half, and its buffer does not change in between. -/
theorem before4_accum (c : Dev nD) (t : Fin cfg0.N) (ht : t.val % 2 = 1) (d) :
    (dats m 0 c).before 4 t d = partV m c (prev t) := by
  have hpos : t.val ≠ 0 := by omega
  have hfl : (cfg0.win 4).flush ⟨t.val - 1, Nat.lt_of_le_of_lt (Nat.sub_le _ _) t.isLt⟩ = false :=
    Bool.eq_false_iff.mpr fun h => by
      have := (flush0_4 ⟨t.val - 1, Nat.lt_of_le_of_lt (Nat.sub_le _ _) t.isLt⟩).mp h
      dsimp only at this; omega
  rw [(dats m 0 c).before_out_kept 4 rfl t hpos hfl live4_all (fun _ _ => rfl) d, after4]
  unfold outV prev
  rw [if_pos (by dsimp only; omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (stg0 t) fullShare (iblk m c 0 t) := by
  unfold Dat.leavesExact; rw [live0 t, after0]
theorem leaves1 (c : Dev nD) (t : Fin cfg0.N) : (dats m 0 c).leavesExact 1 t = owns (c : Thread nD τ) (stg1 t) fullShare (iblk m c 1 t) := by
  unfold Dat.leavesExact; rw [live1 t, after1]
theorem leaves2 (c : Dev nD) (t : Fin cfg0.N) : (dats m 0 c).leavesExact 2 t = owns (c : Thread nD τ) (stg2 t) fullShare (iblk m c 2 t) := by
  unfold Dat.leavesExact; rw [live2 t, after2]
theorem leaves3 (c : Dev nD) (t : Fin cfg0.N) : (dats m 0 c).leavesExact 3 t = owns (c : Thread nD τ) (stg3 t) fullShare (iblk m c 3 t) := by
  unfold Dat.leavesExact; rw [live3 t, after3]
theorem leaves4 (c : Dev nD) (t : Fin cfg0.N) : (dats m 0 c).leavesExact 4 t = owns (c : Thread nD τ) (stg4 t) fullShare (outV m c t) := by
  unfold Dat.leavesExact; rw [live4 t, after4]

set_option maxHeartbeats 2000000 in
/-- The body at any point: which of the three cases the point is in is decided by its position; the inputs' buffers hold
    their blocks; in the second half the output's buffer holds the first half's partial product; after the first point the
    scratch holds the projection. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3, leaves4]
  rw [show (dats m 0 c).owesAt () t.succ = (dats m 0 c).owesAt () t.castSucc from rfl]
  rw [show (dats m 0 c).Φ t.succ = iprop(iprop(owns (c : Thread nD τ) scr fullShare (projV m c)) ∗ (∃ r, prngReg c r)) from rfl]
  have hN : t.val < 16 := lt_of_lt_of_eq t.isLt (show cfg0.N = 16 from N_0)
  by_cases hz : t.val = 0
  · -- the first point
    have h0 : t.val % 16 = 0 := by omega
    have h1 : t.val % 2 = 0 := by omega
    have h2 : ¬ t.val % 2 = 1 := by omega
    have ht : t = tFirst := Fin.ext hz
    rw [show (dats m 0 c).Φ t.castSucc = Pipeline.ΦA spec0 c from by
      show inv m c t.castSucc.val = _; rw [Fin.coe_castSucc, hz]; rfl, plainInv_eq]
    have hout : outV m c t = k0_pay2 (rowsOf (grid0.coords t) (k0_pay1 (iblk m c 0 t) (iblk m c 1 t) (iblk m c 2 t))) (iblk m c 3 t) := by
      unfold outV partV projV; rw [if_pos h1, ht]
    have hproj : projV m c = k0_pay1 (iblk m c 0 t) (iblk m c 1 t) (iblk m c 2 t) := by
      unfold projV; rw [ht]
    rw [hout, hproj]
    iintro ⟨⟨HS0, Hg⟩, Ho, ⟨%d0, H0⟩, ⟨%d1, H1⟩, ⟨%d2, H2⟩, ⟨%d3, H3⟩, ⟨%d4, H4⟩⟩
    iapply ((run_first c (grid0.coords t) _ _ _ _ _ _ _ _ _ _ _ _ ((isFirst_iff t).mpr h0) ((isReset_iff t).mpr h1) (fun h => h2 ((isAccum_iff t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · have h0 : ¬ t.val % 16 = 0 := by omega
    rw [show (dats m 0 c).Φ t.castSucc = iprop(iprop(owns (c : Thread nD τ) scr fullShare (projV m c)) ∗ (∃ r, prngReg c r)) from by
      show inv m c t.castSucc.val = _
      rw [Fin.coe_castSucc]
      obtain ⟨n, hn⟩ : ∃ n, t.val = n + 1 := ⟨t.val - 1, by omega⟩
      rw [hn]; rfl]
    by_cases h1 : t.val % 2 = 0
    · -- first contraction half of a later row block
      have h2 : ¬ t.val % 2 = 1 := by omega
      rw [show outV m c t = k0_pay2 (rowsOf (grid0.coords t) (projV m c)) (iblk m c 3 t) from by
        unfold outV partV; rw [if_pos h1]]
      iintro ⟨⟨HS0, Hg⟩, Ho, ⟨%d0, H0⟩, ⟨%d1, H1⟩, ⟨%d2, H2⟩, ⟨%d3, H3⟩, ⟨%d4, H4⟩⟩
      iapply ((run_reset c (grid0.coords t) _ _ _ _ _ _ _ _ _ _ _ _ (fun h => h0 ((isFirst_iff t).mp h)) ((isReset_iff t).mpr h1) (fun h => h2 ((isAccum_iff t).mp h)) (iblk m c 0 t) (iblk m c 1 t) (iblk m c 2 t) (iblk m c 3 t) (projV m c)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4
    · -- second contraction half
      have h2 : t.val % 2 = 1 := by omega
      simp only [before4_accum m c t h2]
      rw [show outV m c t = k0_pay3 (rowsOf (grid0.coords t) (projV m c)) (iblk m c 3 t) (partV m c (prev t)) from by
        unfold outV; rw [if_neg h1]]
      iintro ⟨⟨HS0, Hg⟩, Ho, ⟨%d0, H0⟩, ⟨%d1, H1⟩, ⟨%d2, H2⟩, ⟨%d3, H3⟩, ⟨%d4, H4⟩⟩
      iapply ((run_accum c (grid0.coords t) _ _ _ _ _ _ _ _ _ _ _ _ (fun h => h0 ((isFirst_iff t).mp h)) (fun h => h1 ((isReset_iff t).mp h)) ((isAccum_iff t).mpr h2) (iblk m c 0 t) (iblk m c 1 t) (iblk m c 2 t) (iblk m c 3 t) (partV m c (prev t)) (projV m c)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 :=
  Idealize.SL.BI.Entails.refl _

/-- After the last point the invariant gives the plain one back: the scratch's contents are forgotten. -/
theorem inv_out (c : Dev nD) : (dats m 0 c).Φ (Fin.last cfg0.N) ⊢ Pipeline.ΦA spec0 c := by
  rw [show (dats m 0 c).Φ (Fin.last cfg0.N) = iprop(iprop(owns (c : Thread nD τ) scr fullShare (projV m c)) ∗ (∃ r, prngReg c r)) from by
    show inv m c (Fin.last cfg0.N).val = _
    rw [Fin.val_last, show cfg0.N = 15 + 1 from N_0]; rfl, plainInv_eq]
  iintro ⟨HS0, Hg⟩
  isplitl [HS0]
  · iexists _; iexact HS0
  iexact Hg

/-! ## The run and the frame -/

set_option backward.isDefEq.respectTransparency.types false in
/-- Every weakly fair execution of @main terminates; every array of the pipeline ends at what the proof data computes,
    every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body
end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.Ideal.Reads.lean ====
/-
  The blocks the body loads, read at a row and a column of the whole arrays.
  The three small operands are staged whole, so their block at any grid point is the array itself; the bias arrives
  as a single row, a reshape of the bias vector. The tile of `a` at grid point t = 2·i + j (row block i, contraction
  half j) starts at row 512·i and column 2048·j. The 2048 rows of the projection used at that point start at row 2048·j.
-/
import proofs.«162685_g11879879542422_cont_fleet_303_32_alg».proof.Proof.Ideal.Frame
import proofs.«162685_g11879879542422_cont_fleet_303_32_alg».proof.Proof.LibMatrixReads
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Reads

open Idealize.ShloMosaic Idealize.ShloMosaic.TcCoe Idealize.ShloMosaic.ValueIdx Idealize.SL.Sem
open Cert.KernelIdeal Cert.KernelIdeal.Gen Cert.KernelIdeal.Body Idealize.ShloMosaic.StableHlo

variable (m : (ℓ : Loc nD τ sig) → Buf (Elt Ideal) ℓ)

/-- The grid is row-major: point `t` is row block `t / 2`, contraction half `t % 2`; the output's block index is `(0, t / 2)`. -/
theorem grid_facts : ∀ t : Fin cfg0.N, win0_3.index t (0 : Fin 2) = t.val / 2 ∧ win0_3.index t (1 : Fin 2) = t.val % 2
    ∧ win0_4.index t (0 : Fin 2) = 0 ∧ win0_4.index t (1 : Fin 2) = t.val / 2 ∧ ((grid0.coords t) 1).val = t.val % 2
    ∧ win0_0.index t (0 : Fin 2) = 0 ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of `b` is `b`. -/
theorem blk_b (c : Dev nD) (t : Fin cfg0.N) (k : Fin 4096) (l : Fin 256) :
    (iblk m c 0 t : Vec Ideal S4096x256 .f32) (ix2 k l) = m ((c.tc : Thread nD τ).loc main_arg1) (ix2 k l) := by
  obtain ⟨-, -, -, -, -, e0, e1, -⟩ := grid_facts t
  unfold iblk
  show V m c main_arg1 (((cfg0.win 0).blk t).view.emb (ix2 k l)) = _
  rw [V_main_arg1]
  refine congrArg _ (funext fun a => Fin.ext ?_)
  match a with
  | ⟨0, _⟩ => show win0_0.index t (0 : Fin 2) * 4096 + 1 * k.val = k.val; omega
  | ⟨1, _⟩ => show win0_0.index t (1 : Fin 2) * 256 + 1 * l.val = l.val; omega

/-- The block of `W` is `W`. -/
theorem blk_w (c : Dev nD) (t : Fin cfg0.N) (l : Fin 256) (d : Fin 32) :
    (iblk m c 1 t : Vec Ideal S256x32 .f32) (ix2 l d) = m ((c.tc : Thread nD τ).loc main_arg2) (ix2 l d) := by
  obtain ⟨-, -, -, -, -, -, -, e0, e1, -⟩ := grid_facts t
  unfold iblk
  show V m c main_arg2 (((cfg0.win 1).blk t).view.emb (ix2 l d)) = _
  rw [V_main_arg2]
  refine congrArg _ (funext fun a => Fin.ext ?_)
  match a with
  | ⟨0, _⟩ => show win0_1.index t (0 : Fin 2) * 256 + 1 * l.val = l.val; omega
  | ⟨1, _⟩ => show win0_1.index t (1 : Fin 2) * 32 + 1 * d.val = d.val; omega

/-- The one-row block of the bias is the bias vector laid out as a row. -/
theorem blk_bias (c : Dev nD) (t : Fin cfg0.N) (d : Fin 32) :
    (iblk m c 2 t : Vec Ideal S1x32 .f32) (ix2 (0 : Fin 1) d) = m ((c.tc : Thread nD τ).loc main_arg3) (ix1 d) := by
  obtain ⟨-, -, -, -, -, -, -, -, -, e0, e1⟩ := grid_facts t
  -- the single row the region finds is the bias vector reshaped by the host
  have hrow : (V m c main_v0 : S1x32.Idx → EReal) = shapeCast S1x32 (m ((c.tc : Thread nD τ).loc main_arg3)) Facts₀.shapeCasts_S32_S1x32 := by
    show StableHlo.after hostOps0 (fun b => m (c, b)) (Proc.devRef .tc main_v0) = _
    after_results
    rfl
  unfold iblk
  show V m c main_v0 (((cfg0.win 2).blk t).view.emb (ix2 (0 : Fin 1) d)) = _
  rw [hrow]
  have hidx : ((cfg0.win 2).blk t).view.emb (ix2 (0 : Fin 1) d) = ix2 (0 : Fin 1) d :=
    funext fun a => Fin.ext (by
      match a with
      | ⟨0, _⟩ => show win0_2.index t (0 : Fin 2) * 1 + 1 * 0 = 0; omega
      | ⟨1, _⟩ => show win0_2.index t (1 : Fin 2) * 32 + 1 * d.val = d.val; omega)
  rw [hidx]
  exact MatrixReads.rowOfVec_apply 32 _ _ d

/-- The tile of `a` at point `t`: rows from 512·(t / 2), columns from 2048·(t % 2). -/
theorem blk_a (c : Dev nD) (t : Fin cfg0.N) (r : Fin 512) (k : Fin 2048) :
    (iblk m c 3 t : Vec Ideal S512x2048 .f32) (ix2 r k)
      = m ((c.tc : Thread nD τ).loc main_arg0) (ix2 (⟨512 * (t.val / 2) + r.val, by have := t.isLt; have : cfg0.N = 16 := N_0; omega⟩ : Fin 4096) (⟨2048 * (t.val % 2) + k.val, by omega⟩ : Fin 4096)) := by
  obtain ⟨e0, e1, -⟩ := grid_facts t
  unfold iblk
  show V m c main_arg0 (((cfg0.win 3).blk t).view.emb (ix2 r k)) = _
  rw [V_main_arg0]
  refine congrArg _ (funext fun a => Fin.ext ?_)
  match a with
  | ⟨0, _⟩ => show win0_3.index t (0 : Fin 2) * 512 + 1 * r.val = 512 * (t.val / 2) + r.val; omega
  | ⟨1, _⟩ => show win0_3.index t (1 : Fin 2) * 2048 + 1 * k.val = 2048 * (t.val % 2) + k.val; omega

/-- The rows of a 4096×32 array used at point `t`: from row 2048·(t % 2). -/
theorem rowsOf_apply (t : Fin cfg0.N) (s : Vec Ideal S4096x32 .f32) (k : Fin 2048) (d : Fin 32) :
    rowsOf (F := Ideal) (grid0.coords t) s (ix2 k d) = s (ix2 (⟨2048 * (t.val % 2) + k.val, by omega⟩ : Fin 4096) d) := by
  obtain ⟨-, -, -, -, ej, -⟩ := grid_facts t
  unfold rowsOf View.ld
  refine congrArg s (funext fun a => Fin.ext ?_)
  match a with
  | ⟨0, _⟩ =>
    show k0_off1 (grid0.coords t) 0 + 1 * k.val = 2048 * (t.val % 2) + k.val
    rw [k0_off1_eq, ej]; show 2048 * (t.val % 2) + 1 * k.val = _; omega
  | ⟨1, _⟩ =>
    show k0_off1 (grid0.coords t) 1 + 1 * d.val = d.val
    rw [k0_off1_eq]; show 0 + 1 * d.val = _; omega

end Cert.KernelIdeal.Reads

end
-- ==== Proof.Ideal.Payloads.lean ====
/-
  The three payloads of the kernel read at a row and a column, on the extended reals.

  The projection payload is a plain matrix product into zeros plus one bias row broadcast down the rows:
    pay1[k, d] = (Σ_{l < 256} x0[k, l] · x1[l, d]) + x2[0, d].
  The partial-product payload contracts the FIRST axis of its left operand with the SECOND axis of its right
  operand, and its result's axes are (left operand's second axis, right operand's first axis):
    pay2[d, r] = Σ_{k < 2048} v7[k, d] · v8[r, k].
  The accumulating payload adds that partial product to the block already there:
    pay3[d, r] = v16[d, r] + pay2[d, r].
  A shape cast between equal shapes is the identity; an elementwise sum reads as the sum of the elements; a product
  into an accumulator of zeros is the bare sum over the contraction index, which is re-indexed by its one coordinate.
-/
import proofs.«162685_g11879879542422_cont_fleet_303_32_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

variable [Facts]

/-! ## The transposed partial product: operand indices axis by axis -/

/-- The left operand's first axis is the contracted one: it reads the contraction coordinate. -/
theorem lhs2_0 (i : S32x512.Idx) (q : dot_S2048x32_S512x2048_S32x512_0_1_1_0_n_n.contr.Idx) :
    (dot_S2048x32_S512x2048_S32x512_0_1_1_0_n_n.lhsIdx i q 0).val = (q ⟨0, by decide⟩).val :=
  dot_S2048x32_S512x2048_S32x512_0_1_1_0_n_n.lhsIdx_val_of_single rfl i q

/-- The left operand's second axis is its free one: it reads the result's first coordinate. -/
theorem lhs2_1 (i : S32x512.Idx) (q : dot_S2048x32_S512x2048_S32x512_0_1_1_0_n_n.contr.Idx) :
    (dot_S2048x32_S512x2048_S32x512_0_1_1_0_n_n.lhsIdx i q 1).val = (i 0).val := by
  unfold DotDims.lhsIdx
  rw [dif_neg (show ¬(1 : Fin S2048x32.rank) ∈ dot_S2048x32_S512x2048_S32x512_0_1_1_0_n_n.lhsBatch by decide),
    dif_pos (show (1 : Fin S2048x32.rank) ∈ dot_S2048x32_S512x2048_S32x512_0_1_1_0_n_n.lhsNonContracting by decide)]
  rfl

/-- The right operand's first axis is its free one: it reads the result's second coordinate. -/
theorem rhs2_0 (i : S32x512.Idx) (q : dot_S2048x32_S512x2048_S32x512_0_1_1_0_n_n.contr.Idx) :
    (dot_S2048x32_S512x2048_S32x512_0_1_1_0_n_n.rhsIdx i q 0).val = (i 1).val := by
  unfold DotDims.rhsIdx
  rw [dif_neg (show ¬(0 : Fin S512x2048.rank) ∈ dot_S2048x32_S512x2048_S32x512_0_1_1_0_n_n.rhsBatch by decide),
    dif_pos (show (0 : Fin S512x2048.rank) ∈ dot_S2048x32_S512x2048_S32x512_0_1_1_0_n_n.rhsNonContracting by decide)]
  rfl

/-- The right operand's second axis is the contracted one: it reads the contraction coordinate. -/
theorem rhs2_1 (i : S32x512.Idx) (q : dot_S2048x32_S512x2048_S32x512_0_1_1_0_n_n.contr.Idx) :
    (dot_S2048x32_S512x2048_S32x512_0_1_1_0_n_n.rhsIdx i q 1).val = (q ⟨0, by decide⟩).val :=
  dot_S2048x32_S512x2048_S32x512_0_1_1_0_n_n.rhsIdx_val_of_single rfl i q

/-- The transposed partial product at (d, r) is the sum over k of v7[k, d] · v8[r, k]. -/
theorem pay2_apply (v7 : Vec Ideal S2048x32 .f32) (v8 : Vec Ideal S512x2048 .f32) (d : Fin 32) (r : Fin 512) :
    k0_pay2 (F := Ideal) v7 v8 (ix2 d r) = ∑ k : Fin 2048, v7 (ix2 k d) * v8 (ix2 r k) := by
  unfold k0_pay2
  refine (Ideal.matmul_constant_zero_apply dot_S2048x32_S512x2048_S32x512_0_1_1_0_n_n none v7 v8 (ix2 d r)).trans ?_
  rw [← Equiv.sum_comp (contrEquiv1 dot_S2048x32_S512x2048_S32x512_0_1_1_0_n_n 2048 rfl rfl).symm]
  refine Finset.sum_congr rfl fun k _ => ?_
  have hk := contrEquiv1_symm_val dot_S2048x32_S512x2048_S32x512_0_1_1_0_n_n 2048 rfl rfl k
  have el : dot_S2048x32_S512x2048_S32x512_0_1_1_0_n_n.lhsIdx (ix2 d r)
      ((contrEquiv1 dot_S2048x32_S512x2048_S32x512_0_1_1_0_n_n 2048 rfl rfl).symm k) = ix2 k d :=
    funext fun a => Fin.ext (by
      match a with
      | ⟨0, _⟩ => exact (lhs2_0 _ _).trans hk
      | ⟨1, _⟩ => exact lhs2_1 _ _)
  have er : dot_S2048x32_S512x2048_S32x512_0_1_1_0_n_n.rhsIdx (ix2 d r)
      ((contrEquiv1 dot_S2048x32_S512x2048_S32x512_0_1_1_0_n_n 2048 rfl rfl).symm k) = ix2 r k :=
    funext fun a => Fin.ext (by
      match a with
      | ⟨0, _⟩ => exact rhs2_0 _ _
      | ⟨1, _⟩ => exact (rhs2_1 _ _).trans hk)
  rw [el, er]

/-- The accumulating payload at (d, r) is the block already there plus the partial product. -/
theorem pay3_apply (v7 : Vec Ideal S2048x32 .f32) (v8 : Vec Ideal S512x2048 .f32) (v16 : Vec Ideal S32x512 .f32)
    (d : Fin 32) (r : Fin 512) :
    k0_pay3 (F := Ideal) v7 v8 v16 (ix2 d r) = v16 (ix2 d r) + k0_pay2 (F := Ideal) v7 v8 (ix2 d r) := by
  unfold k0_pay3
  show shapeCast S32x512 v16 Facts₀.shapeCasts_S32x512_S32x512 (ix2 d r) + k0_pay2 (F := Ideal) v7 v8 (ix2 d r) = _
  rw [shapeCast_self]

/-! ## The projection: operand indices axis by axis -/

/-- The left operand's first axis is its free one: it reads the result's first coordinate. -/
theorem lhs1_0 (i : S4096x32.Idx) (q : dot_S4096x256_S256x32_S4096x32_1_0_0_1_n_n.contr.Idx) :
    (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide),
    dif_pos (show (0 : Fin S4096x256.rank) ∈ dot_S4096x256_S256x32_S4096x32_1_0_0_1_n_n.lhsNonContracting by decide)]
  rfl

/-- The left operand's second axis is the contracted one. -/
theorem lhs1_1 (i : S4096x32.Idx) (q : dot_S4096x256_S256x32_S4096x32_1_0_0_1_n_n.contr.Idx) :
    (dot_S4096x256_S256x32_S4096x32_1_0_0_1_n_n.lhsIdx i q 1).val = (q ⟨0, by decide⟩).val :=
  dot_S4096x256_S256x32_S4096x32_1_0_0_1_n_n.lhsIdx_val_of_single rfl i q

/-- The right operand's first axis is the contracted one. -/
theorem rhs1_0 (i : S4096x32.Idx) (q : dot_S4096x256_S256x32_S4096x32_1_0_0_1_n_n.contr.Idx) :
    (dot_S4096x256_S256x32_S4096x32_1_0_0_1_n_n.rhsIdx i q 0).val = (q ⟨0, by decide⟩).val :=
  dot_S4096x256_S256x32_S4096x32_1_0_0_1_n_n.rhsIdx_val_of_single rfl i q

/-- The right operand's second axis is its free one: it reads the result's second coordinate. -/
theorem rhs1_1 (i : S4096x32.Idx) (q : dot_S4096x256_S256x32_S4096x32_1_0_0_1_n_n.contr.Idx) :
    (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide),
    dif_pos (show (1 : Fin S256x32.rank) ∈ dot_S4096x256_S256x32_S4096x32_1_0_0_1_n_n.rhsNonContracting by decide)]
  rfl

/-- The plain product into zeros at (k, d) is the sum over l of x0[k, l] · x1[l, d]. -/
theorem dot1_apply (x0 : Vec Ideal S4096x256 .f32) (x1 : Vec Ideal S256x32 .f32) (k : Fin 4096) (d : Fin 32) :
    matmul (F := Ideal) (φ₁ := .f32) (φ₂ := .f32) dot_S4096x256_S256x32_S4096x32_1_0_0_1_n_n none x0 x1
        (constant (F := Ideal) S4096x32 .f32 0x00000000#32) (ix2 k d)
      = ∑ l : Fin 256, x0 (ix2 k l) * x1 (ix2 l d) := by
  refine (Ideal.matmul_constant_zero_apply dot_S4096x256_S256x32_S4096x32_1_0_0_1_n_n none x0 x1 (ix2 k d)).trans ?_
  rw [← Equiv.sum_comp (contrEquiv1 dot_S4096x256_S256x32_S4096x32_1_0_0_1_n_n 256 rfl rfl).symm]
  refine Finset.sum_congr rfl fun l _ => ?_
  have hl := contrEquiv1_symm_val dot_S4096x256_S256x32_S4096x32_1_0_0_1_n_n 256 rfl rfl l
  have el : dot_S4096x256_S256x32_S4096x32_1_0_0_1_n_n.lhsIdx (ix2 k d)
      ((contrEquiv1 dot_S4096x256_S256x32_S4096x32_1_0_0_1_n_n 256 rfl rfl).symm l) = ix2 k l :=
    funext fun a => Fin.ext (by
      match a with
      | ⟨0, _⟩ => exact lhs1_0 _ _
      | ⟨1, _⟩ => exact (lhs1_1 _ _).trans hl)
  have er : dot_S4096x256_S256x32_S4096x32_1_0_0_1_n_n.rhsIdx (ix2 k d)
      ((contrEquiv1 dot_S4096x256_S256x32_S4096x32_1_0_0_1_n_n 256 rfl rfl).symm l) = ix2 l d :=
    funext fun a => Fin.ext (by
      match a with
      | ⟨0, _⟩ => exact (rhs1_0 _ _).trans hl
      | ⟨1, _⟩ => exact rhs1_1 _ _)
  rw [el, er]

/-- The one bias row broadcast down the 4096 rows reads that row at every row. -/
theorem bias_apply (x2 : Vec Ideal S1x32 .f32) (k : Fin 4096) (d : Fin 32) :
    broadcastTo S4096x32 x2 Facts₀.broadcasts_S1x32_S4096x32 (ix2 k d) = x2 (ix2 (0 : Fin 1) d) := by
  refine broadcastTo_apply x2 Facts₀.broadcasts_S1x32_S4096x32 (ix2 k d) (ix2 0 d) fun a => ?_
  match a with
  | ⟨0, _⟩ => rfl
  | ⟨1, _⟩ =>
    show d.val = if (32 : Nat) = 1 then 0 else d.val
    rw [if_neg (by decide)]

/-- The projection payload at (k, d) is (the sum over l of x0[k, l] · x1[l, d]) + x2[0, d]. -/
theorem pay1_apply (x0 : Vec Ideal S4096x256 .f32) (x1 : Vec Ideal S256x32 .f32) (x2 : Vec Ideal S1x32 .f32)
    (k : Fin 4096) (d : Fin 32) :
    k0_pay1 (F := Ideal) x0 x1 x2 (ix2 k d) = (∑ l : Fin 256, x0 (ix2 k l) * x1 (ix2 l d)) + x2 (ix2 (0 : Fin 1) d) := by
  unfold k0_pay1
  rw [shapeCast_self, shapeCast_self]
  show matmul (F := Ideal) (φ₁ := .f32) (φ₂ := .f32) dot_S4096x256_S256x32_S4096x32_1_0_0_1_n_n none x0 x1
        (constant (F := Ideal) S4096x32 .f32 0x00000000#32) (ix2 k d)
      + broadcastTo S4096x32 x2 Facts₀.broadcasts_S1x32_S4096x32 (ix2 k d) = _
  rw [dot1_apply, bias_apply]

end Cert.KernelIdeal.Payloads

end
-- ==== Proof.Spec.lean ====
/-
  The mathematics of the claim, free of any program: a dense projection followed by a dense product.
  With a : 4096×4096, b : 4096×256, W : 256×32 and bias : 32, all over the extended reals,
    h[k, d]   = (Σ_{l < 256} b[k, l] · W[l, d]) + bias[d]
    out[n, d] = Σ_{k < 4096} a[n, k] · h[k, d].
  The kernel forms the transposed product in two halves of the contraction axis,
    outT[d, n] = (Σ_{k < 2048} h[k, d] · a[n, k]) + (Σ_{k < 2048} h[2048 + k, d] · a[n, 2048 + k]),
  which is the same extended real: multiplication commutes and a sum over 4096 terms is the sum of its two runs of 2048
  (both laws hold on the extended reals without any finiteness assumption).
-/
import Idealize.ShloMosaic.PureOps.Ideal
import Idealize.ShloMosaic.Lib.ValueIdx

noncomputable section

open scoped BigOperators

namespace Cert.Spec

open Idealize.ShloMosaic Idealize.ShloMosaic.ValueIdx

/-- The shapes of the four inputs, of the projection (and the result), and of the transposed result. -/
abbrev ShA : Shape := ⟨2, ![4096, 4096]⟩
abbrev ShB : Shape := ⟨2, ![4096, 256]⟩
abbrev ShW : Shape := ⟨2, ![256, 32]⟩
abbrev ShBias : Shape := ⟨1, ![32]⟩
abbrev ShH : Shape := ⟨2, ![4096, 32]⟩
abbrev ShT : Shape := ⟨2, ![32, 4096]⟩

/-- The projection h = b·W + bias at row `k`, column `d`. -/
def proj (b : ShB.Idx → EReal) (W : ShW.Idx → EReal) (bias : ShBias.Idx → EReal) (k : Fin 4096) (d : Fin 32) : EReal :=
  (∑ l : Fin 256, b (ix2 k l) * W (ix2 l d)) + bias (ix1 d)

/-- The result at row `n`, column `d`: the row of `a` against the column of the projection. -/
def out (a : ShA.Idx → EReal) (b : ShB.Idx → EReal) (W : ShW.Idx → EReal) (bias : ShBias.Idx → EReal) (n : Fin 4096) (d : Fin 32) : EReal :=
  ∑ k : Fin 4096, a (ix2 n k) * proj b W bias k d

/-- The whole result array, index by index. -/
def G (a : ShA.Idx → EReal) (b : ShB.Idx → EReal) (W : ShW.Idx → EReal) (bias : ShBias.Idx → EReal) : ShH.Idx → EReal :=
  fun i => out a b W bias ⟨(i 0).val, (i 0).isLt⟩ ⟨(i 1).val, (i 1).isLt⟩

/-- The kernel's arrangement: the contraction axis in two runs of 2048, the projection on the left of each product. -/
def outHalves (a : ShA.Idx → EReal) (b : ShB.Idx → EReal) (W : ShW.Idx → EReal) (bias : ShBias.Idx → EReal) (n : Fin 4096) (d : Fin 32) : EReal :=
  (∑ k : Fin 2048, proj b W bias ⟨k.val, by omega⟩ d * a (ix2 n ⟨k.val, by omega⟩))
    + (∑ k : Fin 2048, proj b W bias ⟨2048 + k.val, by omega⟩ d * a (ix2 n ⟨2048 + k.val, by omega⟩))

end Cert.Spec

end
-- ==== Proof.SpecLaw.lean ====
/-
  Two halves of the contraction, factors swapped, are the whole.

  A sum over 4096 = 2048 + 2048 terms is the sum of its first 2048 terms plus the sum of its last 2048, and each
  product h[k, d] · a[n, k] is a[n, k] · h[k, d]. Both laws hold on the extended reals with no finiteness
  assumption: they are a commutative monoid under addition and under multiplication.
-/
import proofs.«162685_g11879879542422_cont_fleet_303_32_alg».proof.Proof.Spec
import proofs.«162685_g11879879542422_cont_fleet_303_32_alg».proof.Proof.LibMatrixReads

noncomputable section

open scoped BigOperators

namespace Cert.SpecLaw

open Idealize.ShloMosaic Idealize.ShloMosaic.ValueIdx Cert.Spec

/-- The arrangement in two runs of 2048 with the projection on the left is the specification's entry. -/
theorem outHalves_eq (a : Cert.Spec.ShA.Idx → EReal) (b : Cert.Spec.ShB.Idx → EReal) (W : Cert.Spec.ShW.Idx → EReal) (bias : Cert.Spec.ShBias.Idx → EReal) (n : Fin 4096) (d : Fin 32) :
    Cert.Spec.outHalves a b W bias n d = Cert.Spec.out a b W bias n d := by
  calc Cert.Spec.outHalves a b W bias n d
      = (∑ k : Fin 2048, a (ix2 n (⟨k.val, by omega⟩ : Fin 4096)) * proj b W bias (⟨k.val, by omega⟩ : Fin 4096) d)
          + (∑ k : Fin 2048, a (ix2 n (⟨k.val + 2048, by omega⟩ : Fin 4096)) * proj b W bias (⟨k.val + 2048, by omega⟩ : Fin 4096) d) := by
        unfold Cert.Spec.outHalves
        congr 1
        · -- the first run: only the factors are swapped
          exact Finset.sum_congr rfl fun k _ => mul_comm _ _
        · -- the second run: 2048 + k is k + 2048, and the factors are swapped
          refine Finset.sum_congr rfl fun k _ => ?_
          have e : (⟨2048 + k.val, by omega⟩ : Fin 4096) = ⟨k.val + 2048, by omega⟩ := Fin.ext (Nat.add_comm _ _)
          rw [e, mul_comm]
    _ = ∑ k : Fin 4096, a (ix2 n k) * proj b W bias k d :=
        (Idealize.ShloMosaic.MatrixReads.sum_two_runs 2048 2048
          (fun k : Fin (2048 + 2048) => a (ix2 n (k : Fin 4096)) * proj b W bias (k : Fin 4096) d)).symm
    _ = Cert.Spec.out a b W bias n d := rfl

end Cert.SpecLaw

end
-- ==== Proof.Ideal.Value.lean ====
/-
  What the idealized kernel's program computes, on the extended reals.
  Write h = b·W + bias. Block (0, i) of the transposed result is written back after the second contraction half of row
  block i, holding at (d, r) the sum of the two halves' partial products
    (Σ_{k < 2048} h[k, d] · a[512·i + r, k]) + (Σ_{k < 2048} h[2048 + k, d] · a[512·i + r, 2048 + k]),
  which is out[512·i + r, d] = Σ_{k < 4096} a[512·i + r, k] · h[k, d]. The eight blocks tile the transposed array, and the
  host's final transpose turns it into the specification's array.
-/
import proofs.«162685_g11879879542422_cont_fleet_303_32_alg».proof.Proof.Ideal.Frame
import proofs.«162685_g11879879542422_cont_fleet_303_32_alg».proof.Proof.Ideal.Reads
import proofs.«162685_g11879879542422_cont_fleet_303_32_alg».proof.Proof.Ideal.Payloads
import proofs.«162685_g11879879542422_cont_fleet_303_32_alg».proof.Proof.Spec
import proofs.«162685_g11879879542422_cont_fleet_303_32_alg».proof.Proof.SpecLaw
import proofs.«162685_g11879879542422_cont_fleet_303_32_alg».proof.Proof.LibMatrixReads
import Idealize.ShloMosaic.Lib.Pipeline.Value
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Body Cert.KernelIdeal.Reads Cert.KernelIdeal.Payloads Idealize.ShloMosaic.StableHlo

variable (m : (ℓ : Loc nD τ sig) → Buf (Elt Ideal) ℓ)

variable (ρ : Dev nD → PrngReg)

/-- The four argument arrays as launched, on core `c`. -/
abbrev argA (c : Dev nD) : Spec.ShA.Idx → EReal := m ((c.tc : Thread nD τ).loc main_arg0)
abbrev argB (c : Dev nD) : Spec.ShB.Idx → EReal := m ((c.tc : Thread nD τ).loc main_arg1)
abbrev argW (c : Dev nD) : Spec.ShW.Idx → EReal := m ((c.tc : Thread nD τ).loc main_arg2)
abbrev argBias (c : Dev nD) : Spec.ShBias.Idx → EReal := m ((c.tc : Thread nD τ).loc main_arg3)

/-- The transposed result array: at (d, n) the specification's entry (n, d). -/
def GT (c : Dev nD) : S32x4096.Idx → EReal := fun j =>
  Spec.out (argA m c) (argB m c) (argW m c) (argBias m c) ⟨(j 1).val, (j 1).isLt⟩ ⟨(j 0).val, (j 0).isLt⟩

/-- The scratch's projection at row `k`, column `d` is the specification's. -/
theorem projV_apply (c : Dev nD) (k : Fin 4096) (d : Fin 32) :
    projV m c (ix2 k d) = Spec.proj (argB m c) (argW m c) (argBias m c) k d := by
  unfold projV Spec.proj
  refine (pay1_apply _ _ _ k d).trans ?_
  rw [blk_bias]
  refine congrArg (· + _) (Finset.sum_congr rfl fun l _ => ?_)
  rw [blk_b, blk_w]

/-- The partial product of point `t` at (d, r): that half's run of the contraction. -/
theorem partV_apply (c : Dev nD) (t : Fin cfg0.N) (d : Fin 32) (r : Fin 512) :
    partV m c t (ix2 d r) = ∑ k : Fin 2048,
      Spec.proj (argB m c) (argW m c) (argBias m c) (⟨2048 * (t.val % 2) + k.val, by omega⟩ : Fin 4096) d
        * argA m c (ix2 (⟨512 * (t.val / 2) + r.val, by have := t.isLt; have : cfg0.N = 16 := N_0; omega⟩ : Fin 4096) (⟨2048 * (t.val % 2) + k.val, by omega⟩ : Fin 4096)) := by
  unfold partV
  refine (pay2_apply _ _ d r).trans (Finset.sum_congr rfl fun k _ => ?_)
  rw [rowsOf_apply, projV_apply, blk_a]

/-- After the second half of row block `t / 2` the output block holds, at (d, r), the specification's entry
    (512·(t / 2) + r, d). -/
theorem outV_apply (c : Dev nD) (t : Fin cfg0.N) (ht : t.val % 2 = 1) (d : Fin 32) (r : Fin 512) :
    outV m c t (ix2 d r) = Spec.out (argA m c) (argB m c) (argW m c) (argBias m c)
      (⟨512 * (t.val / 2) + r.val, by have := t.isLt; have : cfg0.N = 16 := N_0; omega⟩ : Fin 4096) d := by
  unfold outV
  rw [if_neg (by omega)]
  refine (pay3_apply _ _ _ d r).trans ?_
  rw [← SpecLaw.outHalves_eq]
  unfold Spec.outHalves
  have hN : t.val < 16 := lt_of_lt_of_eq t.isLt (show cfg0.N = 16 from N_0)
  have hp : (prev t).val = t.val - 1 := rfl
  refine congrArg₂ (· + ·) ?_ ?_
  · -- the first half, left by the point before
    refine (partV_apply m c (prev t) d r).trans (Finset.sum_congr rfl fun k _ => ?_)
    have e1 : (⟨2048 * ((prev t).val % 2) + k.val, by omega⟩ : Fin 4096) = ⟨k.val, by omega⟩ := Fin.ext (by show 2048 * ((prev t).val % 2) + k.val = k.val; omega)
    have e2 : (⟨512 * ((prev t).val / 2) + r.val, by omega⟩ : Fin 4096) = ⟨512 * (t.val / 2) + r.val, by omega⟩ := Fin.ext (by show 512 * ((prev t).val / 2) + r.val = 512 * (t.val / 2) + r.val; omega)
    rw [e1, e2]
  · -- the second half, this point's
    refine (partV_apply m c t d r).trans (Finset.sum_congr rfl fun k _ => ?_)
    have e1 : (⟨2048 * (t.val % 2) + k.val, by omega⟩ : Fin 4096) = ⟨2048 + k.val, by omega⟩ := Fin.ext (by show 2048 * (t.val % 2) + k.val = 2048 + k.val; omega)
    rw [e1]

/-- What a write-back point writes back is its block of the transposed result array. -/
theorem flushed_eq (c : Dev nD) (t : Fin cfg0.N) (hf : (cfg0.win 4).flush t = true) :
    (dats m 0 c).flushed 4 t = ((cfg0.win 4).blk t).view.read (Elt Ideal) (GT m c) := by
  have ht : t.val % 2 = 1 := (flush0_4 t).mp hf
  obtain ⟨-, -, e0, e1, -⟩ := grid_facts t
  show (cfg0.win 4).cut (grid0.coords t) ((dats m 0 c).after 4 t) = _
  rw [after4]
  funext j
  obtain ⟨d, r, rfl⟩ : ∃ (d : Fin 32) (r : Fin 512), j = ix2 d r := ⟨j 0, j 1, eq_ix2 j⟩
  show outV m c t (ix2 d r) = GT m c (((cfg0.win 4).blk t).view.emb (ix2 d r))
  rw [outV_apply m c t ht d r]
  unfold GT
  refine congrArg₂ (Spec.out (argA m c) (argB m c) (argW m c) (argBias m c)) (Fin.ext ?_) (Fin.ext ?_)
  · show 512 * (t.val / 2) + r.val = win0_4.index t (1 : Fin 2) * 512 + 1 * r.val; omega
  · show d.val = win0_4.index t (0 : Fin 2) * 32 + 1 * d.val; omega

/-- An index of the transposed array lies in point `t`'s block iff each coordinate lies in the block's range. -/
theorem mem_blk (t : Fin cfg0.N) (i : S32x4096.Idx) :
    i ∈ ((cfg0.win 4).blk t).view.set ↔ ∀ a : Fin 2, win0_4.index t a * S32x512.size a ≤ (i a).val ∧ (i a).val < win0_4.index t a * S32x512.size a + S32x512.size a := by
  show i ∈ ((View.whole main_v1).slice (win0_4.rect t)).set ↔ _
  rw [View.set_slice_whole, Rect.mem_set_unit]
  exact Iff.rfl

/-- Every column n of the transposed array is in the block written back after the second half of row block n / 512. -/
theorem covered (i : S32x4096.Idx) :
    ∃ t : Fin cfg0.N, (cfg0.win 4).flush t = true ∧ i ∈ ((cfg0.win 4).blk t).view.set := by
  have hi0 : (i 0).val < 32 := (i 0).isLt
  have hi1 : (i 1).val < 4096 := (i 1).isLt
  have hN : cfg0.N = 16 := N_0
  refine ⟨⟨2 * ((i 1).val / 512) + 1, by omega⟩, (flush0_4 _).mpr (by show (2 * ((i 1).val / 512) + 1) % 2 = 1; omega), ?_⟩
  obtain ⟨-, -, e0, e1, -⟩ := grid_facts ⟨2 * ((i 1).val / 512) + 1, by omega⟩
  rw [mem_blk]
  intro a
  match a with
  | ⟨0, _⟩ => show win0_4.index _ (0 : Fin 2) * 32 ≤ (i 0).val ∧ (i 0).val < win0_4.index _ (0 : Fin 2) * 32 + 32; dsimp only at e0 e1; omega
  | ⟨1, _⟩ => show win0_4.index _ (1 : Fin 2) * 512 ≤ (i 1).val ∧ (i 1).val < win0_4.index _ (1 : Fin 2) * 512 + 512; dsimp only at e0 e1; omega

/-- The transposed result array after the run. -/
theorem final (c : Dev nD) : (dats m 0 c).arrAt 4 cfg0.N = GT m c :=
  (dats m 0 c).arrAt_eq_of_cover 4 (GT m c) (fun t hf => flushed_eq m c t hf) (covered)

/-- The host's transpose of the transposed array is the specification's array. -/
theorem tail_eq (c : Dev nD) :
    Pipeline.afterTail₀ cfgs (dats m) 0 (V0 m) [hostOps1] c main_v2 = Spec.G (argA m c) (argB m c) (argW m c) (argBias m c) := by
  unfold Pipeline.afterTail₀
  show StableHlo.after hostOps1 _ (Proc.devRef .tc main_v2) = _
  after_results
  have harr : Pipeline.withArrays (cfgs 0).spec c (V0 m c) (fun w => (dats m 0 c).arrAt w (cfgs 0).N) (Proc.devRef .tc main_v1) = GT m c :=
    (Pipeline.withArrays_arr spec0 launch0.win.arr_inj c _ _ 4).trans (final m c)
  rw [harr]
  funext i
  obtain ⟨n, d, rfl⟩ : ∃ (n : Fin 4096) (d : Fin 32), i = ix2 n d := ⟨i 0, i 1, eq_ix2 i⟩
  exact MatrixReads.transpose2_apply 32 4096 (GT m c) _ n d

/-- The idealized kernel's run, read: the result array ends at the specification's array of the launched arguments, and
    the arguments end unchanged. -/
theorem run : θ_run defs (onTc (τ := τ) (main (F := Ideal))) ⟨m, fun _ => 0, ρ⟩ (fun r => ∀ c : Dev nD,
      r.2.mem ((c.tc : Thread nD τ).loc main_v2) = Spec.G (argA m c) (argB m c) (argW m c) (argBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v2 (Pipeline.mem_restRefs_of main_v2 (by decide) (by decide))).trans (tail_eq m c),
      ((h c).1 3).trans (((dats m 0 c).arrAt_in 3 rfl _).trans ((A_eq m c 3).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.Val

end
-- ==== Proof.RefIsSpec.lean ====
/-
  The reference is the specification.

  The reference computes h = b·W + bias (the bias laid along every row) and then out = a·h. Read at an index
  (n, d) it is the sum over k of a[n, k] · ((Σ_l b[k, l] · W[l, d]) + bias[d]), which is the specification's
  entry term for term: each index the reading produces is the index with the same coordinates.
-/
import proofs.«162685_g11879879542422_cont_fleet_303_32_alg».proof.Proof.Gen.ReferenceIdeal.Read
import proofs.«162685_g11879879542422_cont_fleet_303_32_alg».proof.Proof.Spec

noncomputable section

open scoped BigOperators

namespace Cert.RefSide

open Idealize.ShloMosaic Idealize.ShloMosaic.ValueIdx Cert.ReferenceIdeal Cert.ReferenceIdeal.Read

/-- The reference's result is the array of the specification's entries. -/
theorem ref_is_spec (x0 : (⟨Cert.ReferenceIdeal.S4096x4096, .f32⟩ : BufTy).Contents (Elt Ideal)) (x1 : (⟨Cert.ReferenceIdeal.S4096x256, .f32⟩ : BufTy).Contents (Elt Ideal)) (x2 : (⟨Cert.ReferenceIdeal.S256x32, .f32⟩ : BufTy).Contents (Elt Ideal)) (x3 : (⟨Cert.ReferenceIdeal.S32, .f32⟩ : BufTy).Contents (Elt Ideal)) :
    Cert.ReferenceIdeal.Read.val_main_v4 (F := Ideal) x0 x1 x2 x3 = Cert.Spec.G x0 x1 x2 x3 := by
  funext i
  rw [val_main_v4_apply]
  show _ = Cert.Spec.out x0 x1 x2 x3 ⟨(i 0).val, (i 0).isLt⟩ ⟨(i 1).val, (i 1).isLt⟩
  unfold Cert.Spec.out
  refine Finset.sum_congr rfl fun k _ => ?_
  rw [val_main_v3_apply, val_main_v0_apply, val_main_v2_apply, val_main_v1_apply, Ideal.addf_def]
  unfold Cert.Spec.proj
  -- the row of a: (n, k)
  have e4 : lidx_main_v4 i k = ix2 (⟨(i 0).val, (i 0).isLt⟩ : Fin 4096) k :=
    funext fun a => Fin.ext (by match a with | ⟨0, _⟩ => rfl | ⟨1, _⟩ => rfl)
  -- the row of b: (k, l)
  have e0l : ∀ l : Fin 256, lidx_main_v0 (ridx_main_v4 i k) l = ix2 k l := fun l =>
    funext fun a => Fin.ext (by match a with | ⟨0, _⟩ => rfl | ⟨1, _⟩ => rfl)
  -- the column of W: (l, d)
  have e0r : ∀ l : Fin 256, ridx_main_v0 (ridx_main_v4 i k) l = ix2 l (⟨(i 1).val, (i 1).isLt⟩ : Fin 32) := fun l =>
    funext fun a => Fin.ext (by match a with | ⟨0, _⟩ => rfl | ⟨1, _⟩ => rfl)
  -- the entry of the bias: d
  have e1 : idx_main_v1 (idx_main_v2 (ridx_main_v4 i k)) = ix1 (⟨(i 1).val, (i 1).isLt⟩ : Fin 32) :=
    funext fun a => Fin.ext (by match a with | ⟨0, _⟩ => rfl)
  rw [e4, e1]
  congr 2
  exact Finset.sum_congr rfl fun l _ => by rw [e0l, e0r]

end Cert.RefSide

end
-- ==== Proof.lean ====
/-
  The certificate's claim, assembled.
  Both programs compute out = a·(b·W + bias). The reference does it with two host matrix products; the kernel computes the
  projection once into a scratch buffer and then, per row block of `a`, the transposed product in two halves of the
  contraction axis, which the host transposes back. On the extended reals the two agree entry by entry because
  multiplication commutes and a sum may be taken in consecutive runs; no finiteness of the inputs is needed.
  The three frames: the two kernel programs' from their runs with every buffer's contents named; the reference's from its
  run with the result dropped. The idealization rewrote nothing, so there is nothing to preserve.
-/
import proofs.«162685_g11879879542422_cont_fleet_303_32_alg».proof.Defs
import proofs.«162685_g11879879542422_cont_fleet_303_32_alg».proof.Proof.Gen.Kernel
import proofs.«162685_g11879879542422_cont_fleet_303_32_alg».proof.Proof.Gen.KernelIdeal
import proofs.«162685_g11879879542422_cont_fleet_303_32_alg».proof.Proof.Gen.ReferenceIdeal
import proofs.«162685_g11879879542422_cont_fleet_303_32_alg».proof.Proof.Gen.ReferenceIdeal.Run
import proofs.«162685_g11879879542422_cont_fleet_303_32_alg».proof.Proof.Gen.ReferenceIdeal.Read
import proofs.«162685_g11879879542422_cont_fleet_303_32_alg».proof.Proof.Gen.Pre_finite_inputs
import proofs.«162685_g11879879542422_cont_fleet_303_32_alg».proof.Proof.Bits.Frame
import proofs.«162685_g11879879542422_cont_fleet_303_32_alg».proof.Proof.Ideal.Frame
import proofs.«162685_g11879879542422_cont_fleet_303_32_alg».proof.Proof.Ideal.Value
import proofs.«162685_g11879879542422_cont_fleet_303_32_alg».proof.Proof.RefIsSpec
import Idealize.ShloMosaic.Adequacy
import Idealize.ShloMosaic.Init

noncomputable section

namespace Cert.Proof

open Idealize.ShloMosaic Idealize.SL.Sem

/-- The word-level kernel program terminates without a fault and leaves its arguments unchanged. -/
theorem frame_kernel [Cert.Kernel.Facts] [Cert.Pre_finite_inputs.Facts] : Cert.frame_Kernel :=
  fun m ρ _ => Cert.Kernel.Body.frame m ρ

/-- So does the idealized kernel program. -/
theorem frame_kernelIdeal [Cert.KernelIdeal.Facts] [Cert.Pre_finite_inputs.Facts] : Cert.frame_KernelIdeal :=
  fun m ρ _ => Cert.KernelIdeal.Body.frame m ρ

/-- And the reference: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From arguments that agree, both idealized programs end with the specification's array. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.Spec.G (Cert.KernelIdeal.Val.argA m c) (Cert.KernelIdeal.Val.argB m c) (Cert.KernelIdeal.Val.argW m c) (Cert.KernelIdeal.Val.argBias m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefSide.ref_is_spec, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
